-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x4096 : Shape := ⟨3, ![4, 2048, 4096]⟩
abbrev S11008x4096 : Shape := ⟨2, ![11008, 4096]⟩
abbrev S11008x32 : Shape := ⟨2, ![11008, 32]⟩
abbrev S_ : Shape := ⟨0, ![]⟩

class Facts : Prop where
  bcast_S_S4x2048x4096 : S_.BroadcastsInDim S4x2048x4096 (![] : Fin 0 → Fin S4x2048x4096.rank)
  reducesTo_S4x2048x4096_S_d0_1_2 : S4x2048x4096.ReducesTo [0, 1, 2] S_
  h_S_ : 0 < S_.numel
  bcast_S_S11008x32 : S_.BroadcastsInDim S11008x32 (![] : Fin 0 → Fin S11008x32.rank)
  reducesTo_S11008x32_S_d0_1 : S11008x32.ReducesTo [0, 1] S_

variable [Facts]

def fn {F : FTy → Type} [FloatOps F] (main_arg0 : FVec F S4x2048x4096 .f32) (main_arg1 : IVec S11008x4096 32) (main_arg2 : FVec F S11008x32 .f32) : IVec S_ 1 :=
  let main_v0 : FVec F S4x2048x4096 .f32 := Host.absf main_arg0
  let main_cst : FVec F S_ .f32 := constant S_ .f32 0x7F800000#32
  let main_v1 : FVec F S4x2048x4096 .f32 := broadcastInDim S4x2048x4096 ![] bcast_S_S4x2048x4096 main_cst
  let main_v2 : IVec S4x2048x4096 1 := cmpf .olt main_v0 main_v1
  let main_c : IVec S_ 1 := constantI S_ 1 1#1
  let main_v3 : IVec S_ 1 := (fun x v => Host.reduce IntOp.andi x v reducesTo_S4x2048x4096_S_d0_1_2 h_S_) main_v2 main_c
  let main_v4 : FVec F S11008x32 .f32 := Host.absf main_arg2
  let main_cst_0 : FVec F S_ .f32 := constant S_ .f32 0x7F800000#32
  let main_v5 : FVec F S11008x32 .f32 := broadcastInDim S11008x32 ![] bcast_S_S11008x32 main_cst_0
  let main_v6 : IVec S11008x32 1 := cmpf .olt main_v4 main_v5
  let main_c_1 : IVec S_ 1 := constantI S_ 1 1#1
  let main_v7 : IVec S_ 1 := (fun x v => Host.reduce IntOp.andi x v reducesTo_S11008x32_S_d0_1 h_S_) main_v6 main_c_1
  let main_v8 : IVec S_ 1 := andi main_v3 main_v7
  main_v8
-- ==== Kernel.lean ====
abbrev S4x2048x4096 : Shape := ⟨3, ![4, 2048, 4096]⟩
abbrev S11008x4096 : Shape := ⟨2, ![11008, 4096]⟩
abbrev S11008x32 : Shape := ⟨2, ![11008, 32]⟩
abbrev S8192x4096 : Shape := ⟨2, ![8192, 4096]⟩
abbrev S256x4096 : Shape := ⟨2, ![256, 4096]⟩
abbrev S256x32 : Shape := ⟨2, ![256, 32]⟩
abbrev S256x128 : Shape := ⟨2, ![256, 128]⟩
abbrev S256x1 : Shape := ⟨2, ![256, 1]⟩
abbrev S8192x11008 : Shape := ⟨2, ![8192, 11008]⟩
abbrev S512x4096 : Shape := ⟨2, ![512, 4096]⟩
abbrev S512x256 : Shape := ⟨2, ![512, 256]⟩
abbrev S4x2048x11008 : Shape := ⟨3, ![4, 2048, 11008]⟩

abbrev nBuf : Space → Nat
  | .hbm => 7
  | .vmem => 12
  | .smem => 0
  | _ => 0

abbrev bufTy : (tb : Table) → Fin (tcTables nBuf tb) → BufTy
  | .hbm, ⟨0, _⟩ => ⟨S4x2048x4096, .f32⟩
  | .hbm, ⟨1, _⟩ => ⟨S11008x4096, .i32⟩
  | .hbm, ⟨2, _⟩ => ⟨S11008x32, .f32⟩
  | .hbm, ⟨3, _⟩ => ⟨S8192x4096, .f32⟩
  | .hbm, ⟨4, _⟩ => ⟨S11008x4096, .bf16⟩
  | .hbm, ⟨5, _⟩ => ⟨S8192x11008, .f32⟩
  | .hbm, ⟨6, _⟩ => ⟨S4x2048x11008, .f32⟩
  | .local _ .vmem, ⟨0, _⟩ => ⟨S256x4096, .i32⟩
  | .local _ .vmem, ⟨1, _⟩ => ⟨S256x4096, .i32⟩
  | .local _ .vmem, ⟨2, _⟩ => ⟨S256x32, .f32⟩
  | .local _ .vmem, ⟨3, _⟩ => ⟨S256x32, .f32⟩
  | .local _ .vmem, ⟨4, _⟩ => ⟨S256x4096, .bf16⟩
  | .local _ .vmem, ⟨5, _⟩ => ⟨S256x4096, .bf16⟩
  | .local _ .vmem, ⟨6, _⟩ => ⟨S512x4096, .f32⟩
  | .local _ .vmem, ⟨7, _⟩ => ⟨S512x4096, .f32⟩
  | .local _ .vmem, ⟨8, _⟩ => ⟨S256x4096, .bf16⟩
  | .local _ .vmem, ⟨9, _⟩ => ⟨S256x4096, .bf16⟩
  | .local _ .vmem, ⟨10, _⟩ => ⟨S512x256, .f32⟩
  | .local _ .vmem, ⟨11, _⟩ => ⟨S512x256, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11

abbrev nD : Nat := 1
abbrev τ : Topo := Topo.v7x

variable {F : FTy → Type} [FloatOps F]

abbrev grid0 : Pipeline.Grid := ⟨1, ![43], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x32 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨2, ![16, 43], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 2 → Memref sig .tc .vmem S512x4096 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S256x4096 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S512x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

class Facts₀ : Prop where
  shapeCasts_S4x2048x4096_S8192x4096 : S4x2048x4096.ShapeCasts S8192x4096
  inb_S256x4096_S256x128_0_0 : ∀ a, (![0, 0] : Fin 2 → Nat) a + S256x128.size a ≤ S256x4096.size a
  h_S256x128 : 0 < S256x128.numel
  inb_S256x32_S256x1_0_0 : ∀ a, (![0, 0] : Fin 2 → Nat) a + S256x1.size a ≤ S256x32.size a
  h_S256x1 : 0 < S256x1.numel
  broadcasts_S256x1_S256x128 : S256x1.Broadcasts S256x128
  bitsLt_bf16_f32 : FTy.bits .bf16 < FTy.bits .f32
  packedbf16_S256x4096_S256x128_0_0 : (Rect.unit (s := S256x4096) ![0, 0] S256x128.size inb_S256x4096_S256x128_0_0).PackedRows (EltTy.packing .bf16)
  inb_S256x4096_S256x128_0_128 : ∀ a, (![0, 128] : Fin 2 → Nat) a + S256x128.size a ≤ S256x4096.size a
  inb_S256x32_S256x1_0_1 : ∀ a, (![0, 1] : Fin 2 → Nat) a + S256x1.size a ≤ S256x32.size a
  packedbf16_S256x4096_S256x128_0_128 : (Rect.unit (s := S256x4096) ![0, 128] S256x128.size inb_S256x4096_S256x128_0_128).PackedRows (EltTy.packing .bf16)
  inb_S256x4096_S256x128_0_256 : ∀ a, (![0, 256] : Fin 2 → Nat) a + S256x128.size a ≤ S256x4096.size a
  inb_S256x32_S256x1_0_2 : ∀ a, (![0, 2] : Fin 2 → Nat) a + S256x1.size a ≤ S256x32.size a
  packedbf16_S256x4096_S256x128_0_256 : (Rect.unit (s := S256x4096) ![0, 256] S256x128.size inb_S256x4096_S256x128_0_256).PackedRows (EltTy.packing .bf16)
  inb_S256x4096_S256x128_0_384 : ∀ a, (![0, 384] : Fin 2 → Nat) a + S256x128.size a ≤ S256x4096.size a
  inb_S256x32_S256x1_0_3 : ∀ a, (![0, 3] : Fin 2 → Nat) a + S256x1.size a ≤ S256x32.size a
  packedbf16_S256x4096_S256x128_0_384 : (Rect.unit (s := S256x4096) ![0, 384] S256x128.size inb_S256x4096_S256x128_0_384).PackedRows (EltTy.packing .bf16)
  inb_S256x4096_S256x128_0_512 : ∀ a, (![0, 512] : Fin 2 → Nat) a + S256x128.size a ≤ S256x4096.size a
  inb_S256x32_S256x1_0_4 : ∀ a, (![0, 4] : Fin 2 → Nat) a + S256x1.size a ≤ S256x32.size a
  packedbf16_S256x4096_S256x128_0_512 : (Rect.unit (s := S256x4096) ![0, 512] S256x128.size inb_S256x4096_S256x128_0_512).PackedRows (EltTy.packing .bf16)
  inb_S256x4096_S256x128_0_640 : ∀ a, (![0, 640] : Fin 2 → Nat) a + S256x128.size a ≤ S256x4096.size a
  inb_S256x32_S256x1_0_5 : ∀ a, (![0, 5] : Fin 2 → Nat) a + S256x1.size a ≤ S256x32.size a
  packedbf16_S256x4096_S256x128_0_640 : (Rect.unit (s := S256x4096) ![0, 640] S256x128.size inb_S256x4096_S256x128_0_640).PackedRows (EltTy.packing .bf16)
  inb_S256x4096_S256x128_0_768 : ∀ a, (![0, 768] : Fin 2 → Nat) a + S256x128.size a ≤ S256x4096.size a
  inb_S256x32_S256x1_0_6 : ∀ a, (![0, 6] : Fin 2 → Nat) a + S256x1.size a ≤ S256x32.size a
  packedbf16_S256x4096_S256x128_0_768 : (Rect.unit (s := S256x4096) ![0, 768] S256x128.size inb_S256x4096_S256x128_0_768).PackedRows (EltTy.packing .bf16)
  inb_S256x4096_S256x128_0_896 : ∀ a, (![0, 896] : Fin 2 → Nat) a + S256x128.size a ≤ S256x4096.size a
  inb_S256x32_S256x1_0_7 : ∀ a, (![0, 7] : Fin 2 → Nat) a + S256x1.size a ≤ S256x32.size a
  packedbf16_S256x4096_S256x128_0_896 : (Rect.unit (s := S256x4096) ![0, 896] S256x128.size inb_S256x4096_S256x128_0_896).PackedRows (EltTy.packing .bf16)
  inb_S256x4096_S256x128_0_1024 : ∀ a, (![0, 1024] : Fin 2 → Nat) a + S256x128.size a ≤ S256x4096.size a
  inb_S256x32_S256x1_0_8 : ∀ a, (![0, 8] : Fin 2 → Nat) a + S256x1.size a ≤ S256x32.size a
  packedbf16_S256x4096_S256x128_0_1024 : (Rect.unit (s := S256x4096) ![0, 1024] S256x128.size inb_S256x4096_S256x128_0_1024).PackedRows (EltTy.packing .bf16)
  inb_S256x4096_S256x128_0_1152 : ∀ a, (![0, 1152] : Fin 2 → Nat) a + S256x128.size a ≤ S256x4096.size a
  inb_S256x32_S256x1_0_9 : ∀ a, (![0, 9] : Fin 2 → Nat) a + S256x1.size a ≤ S256x32.size a
  packedbf16_S256x4096_S256x128_0_1152 : (Rect.unit (s := S256x4096) ![0, 1152] S256x128.size inb_S256x4096_S256x128_0_1152).PackedRows (EltTy.packing .bf16)
  inb_S256x4096_S256x128_0_1280 : ∀ a, (![0, 1280] : Fin 2 → Nat) a + S256x128.size a ≤ S256x4096.size a
  inb_S256x32_S256x1_0_10 : ∀ a, (![0, 10] : Fin 2 → Nat) a + S256x1.size a ≤ S256x32.size a
  packedbf16_S256x4096_S256x128_0_1280 : (Rect.unit (s := S256x4096) ![0, 1280] S256x128.size inb_S256x4096_S256x128_0_1280).PackedRows (EltTy.packing .bf16)
  inb_S256x4096_S256x128_0_1408 : ∀ a, (![0, 1408] : Fin 2 → Nat) a + S256x128.size a ≤ S256x4096.size a
  inb_S256x32_S256x1_0_11 : ∀ a, (![0, 11] : Fin 2 → Nat) a + S256x1.size a ≤ S256x32.size a
  packedbf16_S256x4096_S256x128_0_1408 : (Rect.unit (s := S256x4096) ![0, 1408] S256x128.size inb_S256x4096_S256x128_0_1408).PackedRows (EltTy.packing .bf16)
  inb_S256x4096_S256x128_0_1536 : ∀ a, (![0, 1536] : Fin 2 → Nat) a + S256x128.size a ≤ S256x4096.size a
  inb_S256x32_S256x1_0_12 : ∀ a, (![0, 12] : Fin 2 → Nat) a + S256x1.size a ≤ S256x32.size a
  packedbf16_S256x4096_S256x128_0_1536 : (Rect.unit (s := S256x4096) ![0, 1536] S256x128.size inb_S256x4096_S256x128_0_1536).PackedRows (EltTy.packing .bf16)
  inb_S256x4096_S256x128_0_1664 : ∀ a, (![0, 1664] : Fin 2 → Nat) a + S256x128.size a ≤ S256x4096.size a
  inb_S256x32_S256x1_0_13 : ∀ a, (![0, 13] : Fin 2 → Nat) a + S256x1.size a ≤ S256x32.size a
  packedbf16_S256x4096_S256x128_0_1664 : (Rect.unit (s := S256x4096) ![0, 1664] S256x128.size inb_S256x4096_S256x128_0_1664).PackedRows (EltTy.packing .bf16)
  inb_S256x4096_S256x128_0_1792 : ∀ a, (![0, 1792] : Fin 2 → Nat) a + S256x128.size a ≤ S256x4096.size a
  inb_S256x32_S256x1_0_14 : ∀ a, (![0, 14] : Fin 2 → Nat) a + S256x1.size a ≤ S256x32.size a
  packedbf16_S256x4096_S256x128_0_1792 : (Rect.unit (s := S256x4096) ![0, 1792] S256x128.size inb_S256x4096_S256x128_0_1792).PackedRows (EltTy.packing .bf16)
  inb_S256x4096_S256x128_0_1920 : ∀ a, (![0, 1920] : Fin 2 → Nat) a + S256x128.size a ≤ S256x4096.size a
  inb_S256x32_S256x1_0_15 : ∀ a, (![0, 15] : Fin 2 → Nat) a + S256x1.size a ≤ S256x32.size a
  packedbf16_S256x4096_S256x128_0_1920 : (Rect.unit (s := S256x4096) ![0, 1920] S256x128.size inb_S256x4096_S256x128_0_1920).PackedRows (EltTy.packing .bf16)
  inb_S256x4096_S256x128_0_2048 : ∀ a, (![0, 2048] : Fin 2 → Nat) a + S256x128.size a ≤ S256x4096.size a
  inb_S256x32_S256x1_0_16 : ∀ a, (![0, 16] : Fin 2 → Nat) a + S256x1.size a ≤ S256x32.size a
  packedbf16_S256x4096_S256x128_0_2048 : (Rect.unit (s := S256x4096) ![0, 2048] S256x128.size inb_S256x4096_S256x128_0_2048).PackedRows (EltTy.packing .bf16)
  inb_S256x4096_S256x128_0_2176 : ∀ a, (![0, 2176] : Fin 2 → Nat) a + S256x128.size a ≤ S256x4096.size a
  inb_S256x32_S256x1_0_17 : ∀ a, (![0, 17] : Fin 2 → Nat) a + S256x1.size a ≤ S256x32.size a
  packedbf16_S256x4096_S256x128_0_2176 : (Rect.unit (s := S256x4096) ![0, 2176] S256x128.size inb_S256x4096_S256x128_0_2176).PackedRows (EltTy.packing .bf16)
  inb_S256x4096_S256x128_0_2304 : ∀ a, (![0, 2304] : Fin 2 → Nat) a + S256x128.size a ≤ S256x4096.size a
  inb_S256x32_S256x1_0_18 : ∀ a, (![0, 18] : Fin 2 → Nat) a + S256x1.size a ≤ S256x32.size a
  packedbf16_S256x4096_S256x128_0_2304 : (Rect.unit (s := S256x4096) ![0, 2304] S256x128.size inb_S256x4096_S256x128_0_2304).PackedRows (EltTy.packing .bf16)
  inb_S256x4096_S256x128_0_2432 : ∀ a, (![0, 2432] : Fin 2 → Nat) a + S256x128.size a ≤ S256x4096.size a
  inb_S256x32_S256x1_0_19 : ∀ a, (![0, 19] : Fin 2 → Nat) a + S256x1.size a ≤ S256x32.size a
  packedbf16_S256x4096_S256x128_0_2432 : (Rect.unit (s := S256x4096) ![0, 2432] S256x128.size inb_S256x4096_S256x128_0_2432).PackedRows (EltTy.packing .bf16)
  inb_S256x4096_S256x128_0_2560 : ∀ a, (![0, 2560] : Fin 2 → Nat) a + S256x128.size a ≤ S256x4096.size a
  inb_S256x32_S256x1_0_20 : ∀ a, (![0, 20] : Fin 2 → Nat) a + S256x1.size a ≤ S256x32.size a
  packedbf16_S256x4096_S256x128_0_2560 : (Rect.unit (s := S256x4096) ![0, 2560] S256x128.size inb_S256x4096_S256x128_0_2560).PackedRows (EltTy.packing .bf16)
  inb_S256x4096_S256x128_0_2688 : ∀ a, (![0, 2688] : Fin 2 → Nat) a + S256x128.size a ≤ S256x4096.size a
  inb_S256x32_S256x1_0_21 : ∀ a, (![0, 21] : Fin 2 → Nat) a + S256x1.size a ≤ S256x32.size a
  packedbf16_S256x4096_S256x128_0_2688 : (Rect.unit (s := S256x4096) ![0, 2688] S256x128.size inb_S256x4096_S256x128_0_2688).PackedRows (EltTy.packing .bf16)
  inb_S256x4096_S256x128_0_2816 : ∀ a, (![0, 2816] : Fin 2 → Nat) a + S256x128.size a ≤ S256x4096.size a
  inb_S256x32_S256x1_0_22 : ∀ a, (![0, 22] : Fin 2 → Nat) a + S256x1.size a ≤ S256x32.size a
  packedbf16_S256x4096_S256x128_0_2816 : (Rect.unit (s := S256x4096) ![0, 2816] S256x128.size inb_S256x4096_S256x128_0_2816).PackedRows (EltTy.packing .bf16)
  inb_S256x4096_S256x128_0_2944 : ∀ a, (![0, 2944] : Fin 2 → Nat) a + S256x128.size a ≤ S256x4096.size a
  inb_S256x32_S256x1_0_23 : ∀ a, (![0, 23] : Fin 2 → Nat) a + S256x1.size a ≤ S256x32.size a
  packedbf16_S256x4096_S256x128_0_2944 : (Rect.unit (s := S256x4096) ![0, 2944] S256x128.size inb_S256x4096_S256x128_0_2944).PackedRows (EltTy.packing .bf16)
  inb_S256x4096_S256x128_0_3072 : ∀ a, (![0, 3072] : Fin 2 → Nat) a + S256x128.size a ≤ S256x4096.size a
  inb_S256x32_S256x1_0_24 : ∀ a, (![0, 24] : Fin 2 → Nat) a + S256x1.size a ≤ S256x32.size a
  packedbf16_S256x4096_S256x128_0_3072 : (Rect.unit (s := S256x4096) ![0, 3072] S256x128.size inb_S256x4096_S256x128_0_3072).PackedRows (EltTy.packing .bf16)
  inb_S256x4096_S256x128_0_3200 : ∀ a, (![0, 3200] : Fin 2 → Nat) a + S256x128.size a ≤ S256x4096.size a
  inb_S256x32_S256x1_0_25 : ∀ a, (![0, 25] : Fin 2 → Nat) a + S256x1.size a ≤ S256x32.size a
  packedbf16_S256x4096_S256x128_0_3200 : (Rect.unit (s := S256x4096) ![0, 3200] S256x128.size inb_S256x4096_S256x128_0_3200).PackedRows (EltTy.packing .bf16)
  inb_S256x4096_S256x128_0_3328 : ∀ a, (![0, 3328] : Fin 2 → Nat) a + S256x128.size a ≤ S256x4096.size a
  inb_S256x32_S256x1_0_26 : ∀ a, (![0, 26] : Fin 2 → Nat) a + S256x1.size a ≤ S256x32.size a
  packedbf16_S256x4096_S256x128_0_3328 : (Rect.unit (s := S256x4096) ![0, 3328] S256x128.size inb_S256x4096_S256x128_0_3328).PackedRows (EltTy.packing .bf16)
  inb_S256x4096_S256x128_0_3456 : ∀ a, (![0, 3456] : Fin 2 → Nat) a + S256x128.size a ≤ S256x4096.size a
  inb_S256x32_S256x1_0_27 : ∀ a, (![0, 27] : Fin 2 → Nat) a + S256x1.size a ≤ S256x32.size a
  packedbf16_S256x4096_S256x128_0_3456 : (Rect.unit (s := S256x4096) ![0, 3456] S256x128.size inb_S256x4096_S256x128_0_3456).PackedRows (EltTy.packing .bf16)
  inb_S256x4096_S256x128_0_3584 : ∀ a, (![0, 3584] : Fin 2 → Nat) a + S256x128.size a ≤ S256x4096.size a
  inb_S256x32_S256x1_0_28 : ∀ a, (![0, 28] : Fin 2 → Nat) a + S256x1.size a ≤ S256x32.size a
  packedbf16_S256x4096_S256x128_0_3584 : (Rect.unit (s := S256x4096) ![0, 3584] S256x128.size inb_S256x4096_S256x128_0_3584).PackedRows (EltTy.packing .bf16)
  inb_S256x4096_S256x128_0_3712 : ∀ a, (![0, 3712] : Fin 2 → Nat) a + S256x128.size a ≤ S256x4096.size a
  inb_S256x32_S256x1_0_29 : ∀ a, (![0, 29] : Fin 2 → Nat) a + S256x1.size a ≤ S256x32.size a
  packedbf16_S256x4096_S256x128_0_3712 : (Rect.unit (s := S256x4096) ![0, 3712] S256x128.size inb_S256x4096_S256x128_0_3712).PackedRows (EltTy.packing .bf16)
  inb_S256x4096_S256x128_0_3840 : ∀ a, (![0, 3840] : Fin 2 → Nat) a + S256x128.size a ≤ S256x4096.size a
  inb_S256x32_S256x1_0_30 : ∀ a, (![0, 30] : Fin 2 → Nat) a + S256x1.size a ≤ S256x32.size a
  packedbf16_S256x4096_S256x128_0_3840 : (Rect.unit (s := S256x4096) ![0, 3840] S256x128.size inb_S256x4096_S256x128_0_3840).PackedRows (EltTy.packing .bf16)
  inb_S256x4096_S256x128_0_3968 : ∀ a, (![0, 3968] : Fin 2 → Nat) a + S256x128.size a ≤ S256x4096.size a
  inb_S256x32_S256x1_0_31 : ∀ a, (![0, 31] : Fin 2 → Nat) a + S256x1.size a ≤ S256x32.size a
  packedbf16_S256x4096_S256x128_0_3968 : (Rect.unit (s := S256x4096) ![0, 3968] S256x128.size inb_S256x4096_S256x128_0_3968).PackedRows (EltTy.packing .bf16)
  inb_S512x4096_S512x4096_0_0 : ∀ a, (![0, 0] : Fin 2 → Nat) a + S512x4096.size a ≤ S512x4096.size a
  h_S512x4096 : 0 < S512x4096.numel
  shapeCasts_S512x4096_S512x4096 : S512x4096.ShapeCasts S512x4096
  inb_S256x4096_S256x4096_0_0 : ∀ a, (![0, 0] : Fin 2 → Nat) a + S256x4096.size a ≤ S256x4096.size a
  h_S256x4096 : 0 < S256x4096.numel
  shapeCasts_S256x4096_S256x4096 : S256x4096.ShapeCasts S256x4096
  inb_S512x256_S512x256_0_0 : ∀ a, (![0, 0] : Fin 2 → Nat) a + S512x256.size a ≤ S512x256.size a
  h_S512x256 : 0 < S512x256.numel
  shapeCasts_S8192x11008_S4x2048x11008 : S8192x11008.ShapeCasts S4x2048x11008
  dot_S512x4096_S256x4096_S512x256_1_1_0_0_n_n_wf : DotDims.WF S512x4096 S256x4096 S512x256 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x4096.size a ≤ S11008x4096.size a
  hwx0_0 : ∀ i : grid0.Coords, EltTy.bits .i32 = 32 ∨ (Rect.block (s := S11008x4096) S256x4096.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x32.size a ≤ S11008x32.size a
  hwx0_1 : ∀ i : grid0.Coords, EltTy.bits .f32 = 32 ∨ (Rect.block (s := S11008x32) S256x32.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x4096.size a ≤ S11008x4096.size a
  hwx0_2 : ∀ i : grid0.Coords, EltTy.bits .bf16 = 32 ∨ (Rect.block (s := S11008x4096) S256x4096.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x4096.size a ≤ S8192x4096.size a
  hwx1_0 : ∀ i : grid1.Coords, EltTy.bits .f32 = 32 ∨ (Rect.block (s := S8192x4096) S512x4096.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S256x4096.size a ≤ S11008x4096.size a
  hwx1_1 : ∀ i : grid1.Coords, EltTy.bits .bf16 = 32 ∨ (Rect.block (s := S11008x4096) S256x4096.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S512x256.size a ≤ S8192x11008.size a
  hwx1_2 : ∀ i : grid1.Coords, EltTy.bits .f32 = 32 ∨ (Rect.block (s := S8192x11008) S512x256.size (cc1_transform_2 i) (hinb1_2 i)).WholeWords (EltTy.packing .f32)

variable [Facts₀]

def dot_S512x4096_S256x4096_S512x256_1_1_0_0_n_n : DotDims S512x4096 S256x4096 S512x256 where
  lhsContracting := [1]
  rhsContracting := [1]
  lhsNonContracting := [0]
  rhsNonContracting := [0]
  lhsBatch := []
  rhsBatch := []
  wf := dot_S512x4096_S256x4096_S512x256_1_1_0_0_n_n_wf

abbrev win0_0 : Pipeline.Window sig grid0 :=
  Pipeline.Window.ofSpec (Memref.whole main_arg1) S256x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S256x32.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S256x4096.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v0) S512x4096.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v1) S256x4096.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v2) S512x256.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S4x2048x4096 : Shape := ⟨3, ![4, 2048, 4096]⟩
abbrev S11008x4096 : Shape := ⟨2, ![11008, 4096]⟩
abbrev S11008x32 : Shape := ⟨2, ![11008, 32]⟩
abbrev S11008x32x128 : Shape := ⟨3, ![11008, 32, 128]⟩
abbrev S11008x32x1 : Shape := ⟨3, ![11008, 32, 1]⟩
abbrev S4x2048x11008 : Shape := ⟨3, ![4, 2048, 11008]⟩

abbrev nBuf : Space → Nat
  | .hbm => 10
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S11008x4096, .i32⟩
  | .hbm, ⟨2, _⟩ => ⟨S11008x32, .f32⟩
  | .hbm, ⟨3, _⟩ => ⟨S11008x4096, .f32⟩
  | .hbm, ⟨4, _⟩ => ⟨S11008x32x128, .f32⟩
  | .hbm, ⟨5, _⟩ => ⟨S11008x32x1, .f32⟩
  | .hbm, ⟨6, _⟩ => ⟨S11008x32x128, .f32⟩
  | .hbm, ⟨7, _⟩ => ⟨S11008x32x128, .f32⟩
  | .hbm, ⟨8, _⟩ => ⟨S11008x4096, .f32⟩
  | .hbm, ⟨9, _⟩ => ⟨S4x2048x11008, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]

class Facts₀ : Prop where
  shapeCasts_S11008x4096_S11008x32x128 : S11008x4096.ShapeCasts S11008x32x128
  bcast_S11008x32_S11008x32x1_0_1 : S11008x32.BroadcastsInDim S11008x32x1 (![0, 1] : Fin 2 → Fin S11008x32x1.rank)
  bcast_S11008x32x1_S11008x32x128_0_1_2 : S11008x32x1.BroadcastsInDim S11008x32x128 (![0, 1, 2] : Fin 3 → Fin S11008x32x128.rank)
  shapeCasts_S11008x32x128_S11008x4096 : S11008x32x128.ShapeCasts S11008x4096
  dot_S4x2048x4096_S11008x4096_S4x2048x11008_2_1_01_0_n_n_wf : DotDims.WF S4x2048x4096 S11008x4096 S4x2048x11008 [2] [1] [0, 1] [0] [] []

variable [Facts₀]

def dot_S4x2048x4096_S11008x4096_S4x2048x11008_2_1_01_0_n_n : DotDims S4x2048x4096 S11008x4096 S4x2048x11008 where
  lhsContracting := [2]
  rhsContracting := [1]
  lhsNonContracting := [0, 1]
  rhsNonContracting := [0]
  lhsBatch := []
  rhsBatch := []
  wf := dot_S4x2048x4096_S11008x4096_S4x2048x11008_2_1_01_0_n_n_wf

class Facts : Prop extends Facts₀ where

variable [Facts]
-- ==== Proof.Dequant.lean ====
/-
  The first pallas_call: dequantisation, tile by tile.

  Its grid has 43 points; point `t` takes rows `256·t … 256·t + 255` of the integer weight (all 4096 columns) and of
  the scales (all 32 groups) and writes the same rows of the dequantised weight. Inside a tile the body walks the 32
  scale groups: for group `g` it loads columns `128·g … 128·g + 127` of the weight tile and column `g` of the scale
  tile, converts the integers, multiplies each row by that row's scale (the scale column broadcast along the 128
  columns) and stores the product over the same 128 columns of the output tile. The 32 stores tile the output, and
  every one of them is the SAME function of the tile's index: entry `(r, k)` is `w[r, k] · scale[r, k / 128]`. So
  the tile, and then the whole array, is one function of the two arguments, index by index.
-/
import proofs.«112100_j2731599200972_1_alg».proof.Proof.Gen.KernelIdeal.Frame
import Idealize.ShloMosaic.Lib.Pipeline.Value
import Idealize.ShloMosaic.Lib.ValueIdx

set_option maxRecDepth 16384

noncomputable section

namespace Cert.KernelIdeal.Dequant

open Cert.KernelIdeal Cert.KernelIdeal.Gen
open Idealize.ShloMosaic Idealize.ShloMosaic.TcCoe Idealize.ShloMosaic.ValueIdx
open Idealize.SL.Sem
open Idealize.ShloMosaic.Pipeline (Dat)

variable {F : FTy → Type} [FloatOps F]

/-! ## One tile -/

/-- The tile as one function of its index: entry `(r, k)` of a 256 × 4096 tile is the integer at `(r, k)`, converted,
    times the scale at `(r, k / 128)`, in the narrow format. -/
def tileFn (x0 : Vec F S256x4096 .i32) (x1 : Vec F S256x32 .f32) : Vec F S256x4096 .bf16 :=
  truncf .bf16 (mulf (sitofp .f32 x0)
    ((fun y => x1 (ix2 (⟨(y 0).val, (y 0).isLt⟩ : Fin 256)
      (⟨(y 1).val / 128, by have h : (y 1).val < 4096 := (y 1).isLt; omega⟩ : Fin 32))) : FVec F S256x4096 .f32))
    bitsLt_bf16_f32

/-- Group `g`'s store: the 128 columns from `off = 128·g` of the weight tile and column `g` of the scale tile give,
    at local index `x`, the tile function at the index `x` sits at in the tile. The scale column is broadcast along
    the row, so it is read at `(x 0, 0)` of the loaded column, which is `(x 0, g)` of the scale tile, and
    `(128·g + x 1) / 128 = g`. -/
theorem slice_eq (g off : Nat) (hoff : off = 128 * g) (hg : g < 32)
    (inbW : ∀ a, (![0, off] : Fin 2 → Nat) a + S256x128.size a ≤ S256x4096.size a)
    (inbS : ∀ a, (![0, g] : Fin 2 → Nat) a + S256x1.size a ≤ S256x32.size a)
    (x0 : Vec F S256x4096 .i32) (x1 : Vec F S256x32 .f32) (x : S256x128.Idx) :
    (truncf .bf16 (mulf (sitofp .f32 (View.ld x0 (Rect.unit (s := S256x4096) ![0, off] S256x128.size inbW)))
        (broadcastTo S256x128 (View.ld x1 (Rect.unit (s := S256x32) ![0, g] S256x1.size inbS)) broadcasts_S256x1_S256x128))
        bitsLt_bf16_f32 : FVec F S256x128 .bf16) x
      = tileFn x0 x1 ((Rect.unit (s := S256x4096) ![0, off] S256x128.size inbW).emb x) := by
  subst hoff
  have h1 : (x 1).val < 128 := (x 1).isLt
  have hb : broadcastTo S256x128 (View.ld x1 (Rect.unit (s := S256x32) ![0, g] S256x1.size inbS)) broadcasts_S256x1_S256x128 x
      = x1 (ix2 (⟨(((Rect.unit (s := S256x4096) ![0, 128 * g] S256x128.size inbW).emb x) 0).val, (((Rect.unit (s := S256x4096) ![0, 128 * g] S256x128.size inbW).emb x) 0).isLt⟩ : Fin 256)
          (⟨(((Rect.unit (s := S256x4096) ![0, 128 * g] S256x128.size inbW).emb x) 1).val / 128, by
            have h : (((Rect.unit (s := S256x4096) ![0, 128 * g] S256x128.size inbW).emb x) 1).val < 4096 := (((Rect.unit (s := S256x4096) ![0, 128 * g] S256x128.size inbW).emb x) 1).isLt
            omega⟩ : Fin 32)) := by
    refine (broadcastTo_apply _ broadcasts_S256x1_S256x128 x (ix2 (⟨(x 0).val, (x 0).isLt⟩ : Fin 256) (⟨0, Nat.one_pos⟩ : Fin 1)) (fun a => match a with
      | ⟨0, _⟩ => by show (x 0).val = if (256 : Nat) = 1 then 0 else (x 0).val; rw [if_neg (by decide)]
      | ⟨1, _⟩ => by show 0 = if (1 : Nat) = 1 then 0 else (x 1).val; rw [if_pos rfl])).trans ?_
    show x1 ((Rect.unit (s := S256x32) ![0, g] S256x1.size inbS).idx _) = _
    refine congrArg x1 (funext fun a => Fin.ext ?_)
    match a with
    | ⟨0, _⟩ => show 0 + 1 * (x 0).val = 0 + 1 * (x 0).val; rfl
    | ⟨1, _⟩ => show g + 1 * 0 = (128 * g + 1 * (x 1).val) / 128; omega
  show FloatOps.truncf .bf16 bitsLt_bf16_f32 (FloatOps.mulf (FloatOps.sitofp .f32 (x0 _)) (broadcastTo S256x128 _ broadcasts_S256x1_S256x128 x)) = _
  rw [hb]
  rfl

/-- What the body leaves in the output tile is the tile function of the two input tiles: each of the 32 stores is a
    block of it (`slice_eq`, at its own group and offset), and the 32 stores tile the output. -/
theorem out0_eq (x0 : Vec F S256x4096 .i32) (x1 : Vec F S256x32 .f32) : out0_2 x0 x1 = tileFn x0 x1 := by
  funext y
  unfold out0_2
  refine View.canon_apply_of_pieces (tileFn x0 x1) _ ?_ y (cover0_2 _ _ _ _ _ _ _ _ _ _ _ _ _ _ _ _ _ _ _ _ _ _ _ _ _ _ _ _ _ _ _ _ y)
  intro p hp
  simp only [List.mem_cons, List.not_mem_nil, or_false] at hp
  rcases hp with rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl
  all_goals intro x; exact slice_eq _ _ (by decide) (by decide) _ _ x0 x1 x

/-! ## The whole array -/

/-- The dequantised weight as one function of the two arguments: entry `(o, k)` is the integer at `(o, k)`, converted,
    times the scale at `(o, k / 128)`, in the narrow format. -/
def arrFn (w : Vec F S11008x4096 .i32) (s : Vec F S11008x32 .f32) : Vec F S11008x4096 .bf16 :=
  truncf .bf16 (mulf (sitofp .f32 w)
    ((fun i => s (ix2 (⟨(i 0).val, (i 0).isLt⟩ : Fin 11008)
      (⟨(i 1).val / 128, by have h : (i 1).val < 4096 := (i 1).isLt; omega⟩ : Fin 32))) : FVec F S11008x4096 .f32))
    bitsLt_bf16_f32

/-- The three index maps over the grid: point `t` takes row-block `t` of each array, and the one column-block. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0 :=
  (by decide +kernel : ∀ t : Fin grid0.N, _)

variable (V : (c : Dev nD) → (b : Ref sig .tc) → Buf (Elt F) ((c : Thread nD τ).loc b))

/-- What point `t` writes back is block `t` of `arrFn` of the two arrays as the region finds them: the weight tile
    and the output tile sit at the same rows, and entry `(r, k / 128)` of the scale tile is entry
    `(256·t + r, k / 128)` of the scales. -/
theorem flushed_eq (c : Dev nD) (t : Fin cfg0.N) :
    (dat0 V c).flushed 2 t = ((cfg0.win 2).blk t).view.read (Elt F) (arrFn (V c main_arg1) (V c main_arg2)) := by
  show (cfg0.win 2).cut (grid0.coords t) ((dat0 V c).after 2 t) = _
  rw [after0_2, out0_eq]
  obtain ⟨e00, e01, e10, e11, e20, e21⟩ := idx_facts t
  funext j
  have hj0 : (j 0).val < 256 := (j 0).isLt
  have hj1 : (j 1).val < 4096 := (j 1).isLt
  have h0 : ((cfg0.win 0).blk t).view.emb j = ((cfg0.win 2).blk t).view.emb j := by
    funext a; apply Fin.ext
    match a with
    | ⟨0, _⟩ => show win0_0.index t (0 : Fin 2) * 256 + 1 * (j 0).val = win0_2.index t (0 : Fin 2) * 256 + 1 * (j 0).val; omega
    | ⟨1, _⟩ => show win0_0.index t (1 : Fin 2) * 4096 + 1 * (j 1).val = win0_2.index t (1 : Fin 2) * 4096 + 1 * (j 1).val; omega
  have h1 : ((cfg0.win 1).blk t).view.emb (ix2 (⟨(j 0).val, (j 0).isLt⟩ : Fin 256)
        (⟨(j 1).val / 128, by omega⟩ : Fin 32))
      = ix2 (⟨((((cfg0.win 2).blk t).view.emb j) 0).val, ((((cfg0.win 2).blk t).view.emb j) 0).isLt⟩ : Fin 11008)
          (⟨((((cfg0.win 2).blk t).view.emb j) 1).val / 128, by
            have h : ((((cfg0.win 2).blk t).view.emb j) 1).val < 4096 := ((((cfg0.win 2).blk t).view.emb j) 1).isLt
            omega⟩ : Fin 32) := by
    funext a; apply Fin.ext
    match a with
    | ⟨0, _⟩ => show win0_1.index t (0 : Fin 2) * 256 + 1 * (j 0).val = win0_2.index t (0 : Fin 2) * 256 + 1 * (j 0).val; omega
    | ⟨1, _⟩ => show win0_1.index t (1 : Fin 2) * 32 + 1 * ((j 1).val / 128) = (win0_2.index t (1 : Fin 2) * 4096 + 1 * (j 1).val) / 128; omega
  show FloatOps.truncf .bf16 bitsLt_bf16_f32 (FloatOps.mulf (FloatOps.sitofp .f32 (V c main_arg1 (((cfg0.win 0).blk t).view.emb j)))
      (V c main_arg2 (((cfg0.win 1).blk t).view.emb (ix2 (⟨(j 0).val, (j 0).isLt⟩ : Fin 256) (⟨(j 1).val / 128, by omega⟩ : Fin 32)))))
    = FloatOps.truncf .bf16 bitsLt_bf16_f32 (FloatOps.mulf (FloatOps.sitofp .f32 (V c main_arg1 (((cfg0.win 2).blk t).view.emb j)))
      (V c main_arg2 (ix2 (⟨((((cfg0.win 2).blk t).view.emb j) 0).val, ((((cfg0.win 2).blk t).view.emb j) 0).isLt⟩ : Fin 11008)
          (⟨((((cfg0.win 2).blk t).view.emb j) 1).val / 128, by
            have h : ((((cfg0.win 2).blk t).view.emb j) 1).val < 4096 := ((((cfg0.win 2).blk t).view.emb j) 1).isLt
            omega⟩ : Fin 32))))
  rw [h0, h1]

/-- An index of the array is in point `t`'s block iff each coordinate is in the block's range on its axis. -/
theorem mem_blk (t : Fin cfg0.N) (i : S11008x4096.Idx) :
    i ∈ ((cfg0.win 2).blk t).view.set ↔ ∀ a : Fin 2, win0_2.index t a * S256x4096.size a ≤ (i a).val ∧ (i a).val < win0_2.index t a * S256x4096.size a + S256x4096.size a := by
  show i ∈ ((View.whole main_v1).slice (win0_2.rect t)).set ↔ _
  rw [View.set_slice_whole, Rect.mem_set_unit]
  exact Iff.rfl

/-- Every index of the array is in some point's block: row `r` is in row-block `r / 256`, and 43 blocks of 256 rows
    are the 11008 rows. -/
theorem cover (i : S11008x4096.Idx) :
    ∃ t : Fin cfg0.N, (cfg0.win 2).flush t = true ∧ i ∈ ((cfg0.win 2).blk t).view.set := by
  have hi0 : (i 0).val < 11008 := (i 0).isLt
  have hi1 : (i 1).val < 4096 := (i 1).isLt
  have hN : cfg0.N = 43 := N_0
  let t : Fin cfg0.N := ⟨(i 0).val / 256, by rw [hN]; omega⟩
  obtain ⟨-, -, -, -, e20, e21⟩ := idx_facts t
  have ht : t.val = (i 0).val / 256 := rfl
  refine ⟨t, flush0_2 t, ?_⟩
  rw [mem_blk]
  intro a
  match a with
  | ⟨0, _⟩ => show win0_2.index t (0 : Fin 2) * 256 ≤ (i 0).val ∧ (i 0).val < win0_2.index t (0 : Fin 2) * 256 + 256; omega
  | ⟨1, _⟩ => show win0_2.index t (1 : Fin 2) * 4096 ≤ (i 1).val ∧ (i 1).val < win0_2.index t (1 : Fin 2) * 4096 + 4096; omega

/-- THE ARRAY after the region: the dequantised weight, whatever the contents `V` the region is entered at. -/
theorem final (c : Dev nD) : (dat0 V c).arrAt 2 cfg0.N = arrFn (V c main_arg1) (V c main_arg2) :=
  (dat0 V c).arrAt_eq_of_cover 2 _ (fun t _ => flushed_eq V c t) cover

end Cert.KernelIdeal.Dequant

end
-- ==== Proof.Matmul.lean ====
/-
  The second pallas_call: the product, tile by tile, at the ideal values.

  Its grid is 16 × 43; point `(i, j)` takes rows `512·i … 512·i + 511` of the activations and rows
  `256·j … 256·j + 255` of the dequantised weight, both with all 4096 columns, and writes the 512 × 256 tile of the
  output at `(i, j)`. The body narrows the activation tile (nothing, at the ideal values), multiplies the two tiles
  contracting the 4096 columns of both into a zero accumulator, and stores the result whole. At the ideal values the
  product read at `(r, q)` is `Σ_k a[r, k] · b[q, k]`, so the tile, and then the whole array, is one function of the
  two arrays: `out[m, o] = Σ_k X[m, k] · W[o, k]`. The whole contraction happens inside one point, so no
  accumulation across points is involved.
-/
import proofs.«112100_j2731599200972_1_alg».proof.Proof.Gen.KernelIdeal.Frame
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.Matmul

open Cert.KernelIdeal Cert.KernelIdeal.Gen
open Idealize.ShloMosaic Idealize.ShloMosaic.TcCoe Idealize.ShloMosaic.ValueIdx
open Idealize.SL.Sem
open Idealize.ShloMosaic.Pipeline (Dat)

/-! ## The product's operand indices: output `(r, q)`, contraction index `k` reads the left tile at `(r, k)` and
    the right tile at `(q, k)` -/

theorem lhs_0 (i : S512x256.Idx) (q : dot_S512x4096_S256x4096_S512x256_1_1_0_0_n_n.contr.Idx) :
    (dot_S512x4096_S256x4096_S512x256_1_1_0_0_n_n.lhsIdx i q 0).val = (i 0).val := by
  unfold DotDims.lhsIdx
  rw [dif_neg (show ¬(0 : Fin S512x4096.rank) ∈ dot_S512x4096_S256x4096_S512x256_1_1_0_0_n_n.lhsBatch by decide), dif_pos (show (0 : Fin S512x4096.rank) ∈ dot_S512x4096_S256x4096_S512x256_1_1_0_0_n_n.lhsNonContracting by decide)]
  rfl
theorem lhs_1 (i : S512x256.Idx) (q : dot_S512x4096_S256x4096_S512x256_1_1_0_0_n_n.contr.Idx) :
    (dot_S512x4096_S256x4096_S512x256_1_1_0_0_n_n.lhsIdx i q 1).val = (q ⟨0, by decide⟩).val :=
  dot_S512x4096_S256x4096_S512x256_1_1_0_0_n_n.lhsIdx_val_of_single rfl i q
theorem rhs_0 (i : S512x256.Idx) (q : dot_S512x4096_S256x4096_S512x256_1_1_0_0_n_n.contr.Idx) :
    (dot_S512x4096_S256x4096_S512x256_1_1_0_0_n_n.rhsIdx i q 0).val = (i 1).val := by
  unfold DotDims.rhsIdx
  rw [dif_neg (show ¬(0 : Fin S256x4096.rank) ∈ dot_S512x4096_S256x4096_S512x256_1_1_0_0_n_n.rhsBatch by decide), dif_pos (show (0 : Fin S256x4096.rank) ∈ dot_S512x4096_S256x4096_S512x256_1_1_0_0_n_n.rhsNonContracting by decide)]
  rfl
theorem rhs_1 (i : S512x256.Idx) (q : dot_S512x4096_S256x4096_S512x256_1_1_0_0_n_n.contr.Idx) :
    (dot_S512x4096_S256x4096_S512x256_1_1_0_0_n_n.rhsIdx i q 1).val = (q ⟨0, by decide⟩).val :=
  dot_S512x4096_S256x4096_S512x256_1_1_0_0_n_n.rhsIdx_val_of_single rfl i q

/-! ## One tile -/

/-- The body's payload at `(r, q)`: the sum over the 4096 columns of the activation tile's row `r` times the weight
    tile's row `q`. The two shape casts are to the same shape, the narrowing is the identity at the ideal values, the
    accumulator is zero. -/
theorem pay_apply (x0 : FVec Ideal S512x4096 .f32) (x1 : FVec Ideal S256x4096 .bf16) (y : S512x256.Idx) :
    k1_pay1 (F := Ideal) x0 x1 y
      = ∑ k : Fin 4096, x0 (ix2 (⟨(y 0).val, (y 0).isLt⟩ : Fin 512) k) * x1 (ix2 (⟨(y 1).val, (y 1).isLt⟩ : Fin 256) k) := by
  show FloatOps.matmul dot_S512x4096_S256x4096_S512x256_1_1_0_0_n_n none
      (truncf .bf16 (shapeCast S512x4096 x0 shapeCasts_S512x4096_S512x4096) bitsLt_bf16_f32)
      (shapeCast S256x4096 x1 shapeCasts_S256x4096_S256x4096) (constant S512x256 .f32 0x00000000#32) y = _
  rw [shapeCast_self, shapeCast_self, Ideal.matmul_constant_zero_apply,
    ← Equiv.sum_comp (ValueIdx.contrEquiv1 dot_S512x4096_S256x4096_S512x256_1_1_0_0_n_n 4096 rfl rfl).symm]
  refine Finset.sum_congr rfl fun k _ => ?_
  have hk := ValueIdx.contrEquiv1_symm_val dot_S512x4096_S256x4096_S512x256_1_1_0_0_n_n 4096 rfl rfl k
  have el : dot_S512x4096_S256x4096_S512x256_1_1_0_0_n_n.lhsIdx y ((ValueIdx.contrEquiv1 dot_S512x4096_S256x4096_S512x256_1_1_0_0_n_n 4096 rfl rfl).symm k)
      = ix2 (⟨(y 0).val, (y 0).isLt⟩ : Fin 512) k := funext fun a => Fin.ext (by
    match a with
    | ⟨0, _⟩ => exact lhs_0 _ _
    | ⟨1, _⟩ => exact (lhs_1 _ _).trans hk)
  have er : dot_S512x4096_S256x4096_S512x256_1_1_0_0_n_n.rhsIdx y ((ValueIdx.contrEquiv1 dot_S512x4096_S256x4096_S512x256_1_1_0_0_n_n 4096 rfl rfl).symm k)
      = ix2 (⟨(y 1).val, (y 1).isLt⟩ : Fin 256) k := funext fun a => Fin.ext (by
    match a with
    | ⟨0, _⟩ => exact rhs_0 _ _
    | ⟨1, _⟩ => exact (rhs_1 _ _).trans hk)
  rw [el, er]
  rfl

theorem hz : (![0, 0] : Fin 2 → Nat) = fun _ => 0 := funext fun a => by fin_cases a <;> rfl

/-- What the body leaves in the output tile: its one store covers the tile, and both loads read their tiles whole. -/
theorem out1_eq (x0 : FVec Ideal S512x4096 .f32) (x1 : FVec Ideal S256x4096 .bf16) :
    out1_2 (F := Ideal) x0 x1 = k1_pay1 (F := Ideal) x0 x1 := by
  unfold out1_2
  rw [View.canon_unit_zero hz]
  simp only [View.ld_unit_zero (S := S512x4096) hz, View.ld_unit_zero (S := S256x4096) hz]

/-! ## The whole array -/

/-- The product as one function of the two arrays: entry `(m, o)` is the sum over the 4096 columns of row `m` of the
    activations times row `o` of the weight. -/
def arrFn (X : FVec Ideal S8192x4096 .f32) (W : FVec Ideal S11008x4096 .bf16) : FVec Ideal S8192x11008 .f32 :=
  fun i => ∑ k : Fin 4096, X (ix2 (⟨(i 0).val, (i 0).isLt⟩ : Fin 8192) k) * W (ix2 (⟨(i 1).val, (i 1).isLt⟩ : Fin 11008) k)

/-- The three index maps over the grid, in the linear order of its points: point `t` is `(t / 43, t % 43)`; the
    activations move with the first coordinate, the weight with the second, the output with both. -/
theorem idx_facts : ∀ t : Fin cfg1.N, win1_0.index t (0 : Fin 2) = t.val / 43 ∧ win1_0.index t (1 : Fin 2) = 0
    ∧ win1_1.index t (0 : Fin 2) = t.val % 43 ∧ win1_1.index t (1 : Fin 2) = 0
    ∧ win1_2.index t (0 : Fin 2) = t.val / 43 ∧ win1_2.index t (1 : Fin 2) = t.val % 43 :=
  (by decide +kernel : ∀ t : Fin grid1.N, _)

variable (V : (c : Dev nD) → (b : Ref sig .tc) → Buf (Elt Ideal) ((c : Thread nD τ).loc b))

/-- The activations and the dequantised weight as the region finds them, at their literal types. -/
abbrev xarr (c : Dev nD) : FVec Ideal S8192x4096 .f32 := V c main_v0
abbrev warr (c : Dev nD) : FVec Ideal S11008x4096 .bf16 := V c main_v1

/-- What point `t` writes back is block `t` of `arrFn` of the two arrays as the region finds them: row `r` of the
    activation tile is row `512·(t / 43) + r` of the activations, row `q` of the weight tile is row
    `256·(t % 43) + q` of the weight, and the output tile's `(r, q)` sits at exactly those two rows. -/
theorem flushed_eq (c : Dev nD) (t : Fin cfg1.N) :
    (dat1 V c).flushed 2 t = ((cfg1.win 2).blk t).view.read (Elt Ideal) (arrFn (xarr V c) (warr V c)) := by
  show (cfg1.win 2).cut (grid1.coords t) ((dat1 V c).after 2 t) = _
  rw [after1_2, out1_eq]
  obtain ⟨e00, e01, e10, e11, e20, e21⟩ := idx_facts t
  funext j
  have hj0 : (j 0).val < 512 := (j 0).isLt
  have hj1 : (j 1).val < 256 := (j 1).isLt
  refine (pay_apply (iblk1 V c 0 t) (iblk1 V c 1 t) j).trans ?_
  show _ = ∑ k : Fin 4096,
      xarr V c (ix2 (⟨((((cfg1.win 2).blk t).view.emb j) 0).val, ((((cfg1.win 2).blk t).view.emb j) 0).isLt⟩ : Fin 8192) k)
        * warr V c (ix2 (⟨((((cfg1.win 2).blk t).view.emb j) 1).val, ((((cfg1.win 2).blk t).view.emb j) 1).isLt⟩ : Fin 11008) k)
  refine Finset.sum_congr rfl fun k _ => ?_
  have h0 : ((cfg1.win 0).blk t).view.emb (ix2 (⟨(j 0).val, (j 0).isLt⟩ : Fin 512) k)
      = ix2 (⟨((((cfg1.win 2).blk t).view.emb j) 0).val, ((((cfg1.win 2).blk t).view.emb j) 0).isLt⟩ : Fin 8192) k := by
    funext a; apply Fin.ext
    match a with
    | ⟨0, _⟩ => show win1_0.index t (0 : Fin 2) * 512 + 1 * (j 0).val = win1_2.index t (0 : Fin 2) * 512 + 1 * (j 0).val; omega
    | ⟨1, _⟩ => show win1_0.index t (1 : Fin 2) * 4096 + 1 * k.val = k.val; omega
  have h1 : ((cfg1.win 1).blk t).view.emb (ix2 (⟨(j 1).val, (j 1).isLt⟩ : Fin 256) k)
      = ix2 (⟨((((cfg1.win 2).blk t).view.emb j) 1).val, ((((cfg1.win 2).blk t).view.emb j) 1).isLt⟩ : Fin 11008) k := by
    funext a; apply Fin.ext
    match a with
    | ⟨0, _⟩ => show win1_1.index t (0 : Fin 2) * 256 + 1 * (j 1).val = win1_2.index t (1 : Fin 2) * 256 + 1 * (j 1).val; omega
    | ⟨1, _⟩ => show win1_1.index t (1 : Fin 2) * 4096 + 1 * k.val = k.val; omega
  show xarr V c (((cfg1.win 0).blk t).view.emb (ix2 (⟨(j 0).val, (j 0).isLt⟩ : Fin 512) k))
        * warr V c (((cfg1.win 1).blk t).view.emb (ix2 (⟨(j 1).val, (j 1).isLt⟩ : Fin 256) k))
      = xarr V c (ix2 (⟨((((cfg1.win 2).blk t).view.emb j) 0).val, ((((cfg1.win 2).blk t).view.emb j) 0).isLt⟩ : Fin 8192) k)
        * warr V c (ix2 (⟨((((cfg1.win 2).blk t).view.emb j) 1).val, ((((cfg1.win 2).blk t).view.emb j) 1).isLt⟩ : Fin 11008) k)
  rw [h0, h1]

/-- An index of the array is in point `t`'s block iff each coordinate is in the block's range on its axis. -/
theorem mem_blk (t : Fin cfg1.N) (i : S8192x11008.Idx) :
    i ∈ ((cfg1.win 2).blk t).view.set ↔ ∀ a : Fin 2, win1_2.index t a * S512x256.size a ≤ (i a).val ∧ (i a).val < win1_2.index t a * S512x256.size a + S512x256.size a := by
  show i ∈ ((View.whole main_v2).slice (win1_2.rect t)).set ↔ _
  rw [View.set_slice_whole, Rect.mem_set_unit]
  exact Iff.rfl

/-- Every index of the array is in some point's block: `(m, o)` is in the block of point `(m / 512, o / 256)`, the
    `43·(m / 512) + o / 256`-th of the grid, and 16 × 43 blocks of 512 × 256 are the 8192 × 11008 entries. -/
theorem cover (i : S8192x11008.Idx) :
    ∃ t : Fin cfg1.N, (cfg1.win 2).flush t = true ∧ i ∈ ((cfg1.win 2).blk t).view.set := by
  have hi0 : (i 0).val < 8192 := (i 0).isLt
  have hi1 : (i 1).val < 11008 := (i 1).isLt
  have hN : cfg1.N = 688 := N_1
  let t : Fin cfg1.N := ⟨(i 0).val / 512 * 43 + (i 1).val / 256, by rw [hN]; omega⟩
  obtain ⟨-, -, -, -, e20, e21⟩ := idx_facts t
  have ht : t.val = (i 0).val / 512 * 43 + (i 1).val / 256 := rfl
  refine ⟨t, flush1_2 t, ?_⟩
  rw [mem_blk]
  intro a
  match a with
  | ⟨0, _⟩ => show win1_2.index t (0 : Fin 2) * 512 ≤ (i 0).val ∧ (i 0).val < win1_2.index t (0 : Fin 2) * 512 + 512; omega
  | ⟨1, _⟩ => show win1_2.index t (1 : Fin 2) * 256 ≤ (i 1).val ∧ (i 1).val < win1_2.index t (1 : Fin 2) * 256 + 256; omega

/-- THE ARRAY after the region: the product, whatever the contents `V` the region is entered at. -/
theorem final (c : Dev nD) : (dat1 V c).arrAt 2 cfg1.N = arrFn (xarr V c) (warr V c) :=
  (dat1 V c).arrAt_eq_of_cover 2 _ (fun t _ => flushed_eq V c t) cover

end Cert.KernelIdeal.Matmul

end
-- ==== Proof.Spec.lean ====
/-
  The mathematics of this certificate, free of both programs.

  A linear layer `y[b, s, o] = Σ_k x[b, s, k] · W[o, k]` whose weight is stored quantised: `W[o, k]` is the stored
  signed integer `w[o, k]` times the scale of its group, `scales[o, k / 128]` — 128 consecutive input columns of an
  output row share one scale, so a row of 4096 columns has 32 groups. Over the extended reals the integer is read
  exactly, the product and the sum are the exact ones, and a change of float format does nothing, so this one
  expression is what both programs compute: no law beyond "the same products, summed over the same `k`" joins them,
  and finiteness of the inputs is never used.
-/
import Idealize.ShloMosaic.PureOps.Ideal
import Idealize.ShloMosaic.Lib.ValueIdx

noncomputable section

open scoped BigOperators

namespace Cert.Linear

open Idealize.ShloMosaic Idealize.ShloMosaic.ValueIdx

/-- The scale group of input column `k`: columns `128·g … 128·g + 127` are group `g`. -/
def grp (k : Fin 4096) : Fin 32 := ⟨k.val / 128, by have := k.isLt; omega⟩

/-- The dequantised weight at output row `o`, input column `k`: the stored integer, read signed and exactly, times
    its group's scale. -/
def deq (w : (⟨2, ![11008, 4096]⟩ : Shape).Idx → BitVec 32) (s : (⟨2, ![11008, 32]⟩ : Shape).Idx → EReal)
    (o : Fin 11008) (k : Fin 4096) : EReal :=
  (((w (ix2 o k)).toInt : ℝ) : EReal) * s (ix2 o (grp k))

/-- The layer's output at batch `b`, position `p`, output channel `o`: the sum over the 4096 input columns of the
    activation times the dequantised weight. -/
def linear (x : (⟨3, ![4, 2048, 4096]⟩ : Shape).Idx → EReal) (w : (⟨2, ![11008, 4096]⟩ : Shape).Idx → BitVec 32)
    (s : (⟨2, ![11008, 32]⟩ : Shape).Idx → EReal) (b : Fin 4) (p : Fin 2048) (o : Fin 11008) : EReal :=
  ∑ k : Fin 4096, x (ix3 b p k) * deq w s o k

/-- The same as an array: every index of the output is `ix3` of its coordinates. -/
def linearArr (x : (⟨3, ![4, 2048, 4096]⟩ : Shape).Idx → EReal) (w : (⟨2, ![11008, 4096]⟩ : Shape).Idx → BitVec 32)
    (s : (⟨2, ![11008, 32]⟩ : Shape).Idx → EReal) : (⟨3, ![4, 2048, 11008]⟩ : Shape).Idx → EReal :=
  fun i => linear x w s ⟨(i 0).val, (i 0).isLt⟩ ⟨(i 1).val, (i 1).isLt⟩ ⟨(i 2).val, (i 2).isLt⟩

end Cert.Linear

end
-- ==== Proof.KernelValue.lean ====
/-
  The kernel program's result is the specification.

  @main reshapes the activations [4, 2048, 4096] to [8192, 4096] (row `2048·b + p`), dequantises the weight (first
  pallas_call), multiplies (second pallas_call) and reshapes the [8192, 11008] product to [4, 2048, 11008]. The run
  leaves in the result array the fold of those four steps over the launch memory; read back one buffer at a time:
  the dequantised weight is `w[o, k] · scales[o, k / 128]` of the launch arguments (no step before it writes them),
  the product is `Σ_k X[m, k] · W[o, k]` of the reshaped activations and that weight, and the two reshapes keep
  row-major position, so entry `(b, p, o)` of the result is entry `(2048·b + p, o)` of the product and entry
  `(2048·b + p, k)` of the reshaped activations is entry `(b, p, k)` of the argument. Together:
  `Σ_k x[b, p, k] · (w[o, k] · scales[o, k / 128])`.
-/
import proofs.«112100_j2731599200972_1_alg».proof.Proof.KernelRun
import proofs.«112100_j2731599200972_1_alg».proof.Proof.Dequant
import proofs.«112100_j2731599200972_1_alg».proof.Proof.Matmul
import proofs.«112100_j2731599200972_1_alg».proof.Proof.Spec
import Idealize.ShloMosaic.Lib.StableHlo.Run
import Idealize.ShloMosaic.Lib.Pipeline.Value
import Idealize.ShloMosaic.Lib.ValueIdx

set_option maxRecDepth 16384

noncomputable section

open scoped BigOperators

namespace Cert.KernelIdeal.KernelValue

open Cert.KernelIdeal Cert.KernelIdeal.Gen
open Idealize.ShloMosaic Idealize.ShloMosaic.TcCoe Idealize.ShloMosaic.ValueIdx Idealize.ShloMosaic.StableHlo
open Idealize.SL.Sem

variable (m : (ℓ : Loc nD τ sig) → Buf (Elt Ideal) ℓ) (ρ : Dev nD → PrngReg)

/-- The three arguments as launched, at their literal types. -/
abbrev xin (c : Dev nD) : FVec Ideal S4x2048x4096 .f32 := m ((c : Thread nD τ).loc main_arg0)
abbrev win (c : Dev nD) : Vec Ideal S11008x4096 .i32 := m ((c : Thread nD τ).loc main_arg1)
abbrev sin (c : Dev nD) : FVec Ideal S11008x32 .f32 := m ((c : Thread nD τ).loc main_arg2)

/-! ## The fold, read back one buffer at a time -/

/-- When the first pallas_call is entered the weight is as launched: the opening reshape does not write it. -/
theorem entry0_w (c : Dev nD) : V1 m ρ c main_arg1 = win m c := by
  show StableHlo.after hostOps0 (W0 m ρ c) (Proc.devRef .tc main_arg1) = _
  after_results <;> rfl
/-- … and so are the scales. -/
theorem entry0_s (c : Dev nD) : V1 m ρ c main_arg2 = sin m c := by
  show StableHlo.after hostOps0 (W0 m ρ c) (Proc.devRef .tc main_arg2) = _
  after_results <;> rfl

/-- When the second pallas_call is entered the reshaped activations are the opening reshape of the argument: the
    first pallas_call does not write them. -/
theorem entry1_x (c : Dev nD) :
    V2 m ρ c main_v0 = shapeCast S8192x4096 (xin m c) shapeCasts_S4x2048x4096_S8192x4096 := by
  refine (W2_of_ne m ρ c main_v0 (by decide)).trans ?_
  show StableHlo.after hostOps0 (W0 m ρ c) (Proc.devRef .tc main_v0) = _
  after_results <;> rfl

/-- … and the weight it reads is what the first pallas_call left: the dequantised weight of the launch arguments. -/
theorem entry1_w (c : Dev nD) : V2 m ρ c main_v1 = Dequant.arrFn (win m c) (sin m c) := by
  refine (W2_arr m ρ c 2).trans ?_
  rw [Dequant.final (V1 m ρ) c, entry0_w, entry0_s]

/-- The result array after the run: the closing reshape of what the second pallas_call left. -/
theorem result_fold (c : Dev nD) :
    W4 m ρ c (Proc.devRef .tc main_v3)
      = shapeCast S4x2048x11008
          (Matmul.arrFn (shapeCast S8192x4096 (xin m c) shapeCasts_S4x2048x4096_S8192x4096) (Dequant.arrFn (win m c) (sin m c)))
          shapeCasts_S8192x11008_S4x2048x11008 := by
  have e : W4 m ρ c (Proc.devRef .tc main_v3)
      = shapeCast S4x2048x11008 (W3 m ρ c (Proc.devRef .tc main_v2)) shapeCasts_S8192x11008_S4x2048x11008 := by
    show StableHlo.after hostOps2 (W3 m ρ c) (Proc.devRef .tc main_v3) = _
    after_results <;> rfl
  rw [e]
  have e3 : W3 m ρ c (Proc.devRef .tc main_v2)
      = Matmul.arrFn (shapeCast S8192x4096 (xin m c) shapeCasts_S4x2048x4096_S8192x4096) (Dequant.arrFn (win m c) (sin m c)) := by
    refine (W3_arr m ρ c 2).trans ?_
    rw [Matmul.final (V2 m ρ) c]
    show Matmul.arrFn (V2 m ρ c main_v0) (V2 m ρ c main_v1) = _
    rw [entry1_x, entry1_w]
  rw [e3]

/-! ## The fold at an index -/

/-- Entry `(b, p, o)` of the result: the closing reshape reads the product at `(2048·b + p, o)`, the product sums over
    `k` the reshaped activations at `(2048·b + p, k)` — the argument at `(b, p, k)` — times the dequantised weight at
    `(o, k)`, which at the ideal values is the integer times its group's scale. -/
theorem result_eq (c : Dev nD) :
    shapeCast S4x2048x11008
        (Matmul.arrFn (shapeCast S8192x4096 (xin m c) shapeCasts_S4x2048x4096_S8192x4096) (Dequant.arrFn (win m c) (sin m c)))
        shapeCasts_S8192x11008_S4x2048x11008
      = Cert.Linear.linearArr (xin m c) (win m c) (sin m c) := by
  funext i
  have h0 : (i 0).val < 4 := (i 0).isLt
  have h1 : (i 1).val < 2048 := (i 1).isLt
  have h2 : (i 2).val < 11008 := (i 2).isLt
  refine (shapeCast_apply _ shapeCasts_S8192x11008_S4x2048x11008 i
    (ix2 (⟨(i 0).val * 2048 + (i 1).val, by omega⟩ : Fin 8192) (⟨(i 2).val, h2⟩ : Fin 11008)) ?_).trans ?_
  · rewrite [Shape.rowMajor_val_two, Shape.rowMajor_val_three]
    show ((i 0).val * 2048 + (i 1).val) * 11008 + (i 2).val = ((i 0).val * 2048 + (i 1).val) * 11008 + (i 2).val
    rfl
  show (∑ k : Fin 4096,
        shapeCast S8192x4096 (xin m c) shapeCasts_S4x2048x4096_S8192x4096 (ix2 (⟨(i 0).val * 2048 + (i 1).val, by omega⟩ : Fin 8192) k)
          * Dequant.arrFn (win m c) (sin m c) (ix2 (⟨(i 2).val, h2⟩ : Fin 11008) k))
      = ∑ k : Fin 4096, xin m c (ix3 (⟨(i 0).val, h0⟩ : Fin 4) (⟨(i 1).val, h1⟩ : Fin 2048) k)
          * Cert.Linear.deq (win m c) (sin m c) (⟨(i 2).val, h2⟩ : Fin 11008) k
  refine Finset.sum_congr rfl fun k _ => ?_
  have hk : k.val < 4096 := k.isLt
  have ex : shapeCast S8192x4096 (xin m c) shapeCasts_S4x2048x4096_S8192x4096 (ix2 (⟨(i 0).val * 2048 + (i 1).val, by omega⟩ : Fin 8192) k)
      = xin m c (ix3 (⟨(i 0).val, h0⟩ : Fin 4) (⟨(i 1).val, h1⟩ : Fin 2048) k) :=
    shapeCast_apply (xin m c) shapeCasts_S4x2048x4096_S8192x4096 _ _ (by
      rewrite [Shape.rowMajor_val_three, Shape.rowMajor_val_two]
      show ((i 0).val * 2048 + (i 1).val) * 4096 + k.val = ((i 0).val * 2048 + (i 1).val) * 4096 + k.val
      rfl)
  rw [ex]
  rfl

/-! ## The run, read -/

/-- Every weakly fair execution of the kernel program terminates without a fault with the result array at the layer's
    output of the launch arguments, and the arguments unchanged. -/
theorem run : θ_run defs (onTc (τ := τ) (main (F := Ideal))) ⟨m, fun _ => 0, ρ⟩ (fun r => ∀ c : Dev nD,
      r.2.mem ((c.tc : Thread nD τ).loc main_v3) = Cert.Linear.linearArr (xin m c) (win m c) (sin m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c => ⟨(h c).1.trans ((result_fold m ρ c).trans (result_eq m c)), (h c).2⟩)
    (Named.run_named m ρ)

end Cert.KernelIdeal.KernelValue

end
-- ==== Proof.RefValue.lean ====
/-
  The reference is the specification.

  The reference converts the integer weight, views each row of 4096 columns as 32 groups of 128, multiplies every
  group by its scale (the scales given a unit last axis and broadcast along the 128), views the rows as 4096 columns
  again, and contracts the activations' last axis with the weight's columns. Read at an output index `(b, p, o)` and
  a contraction index `k`: the weight factor is taken at `(o, k)` of the reshaped product, which is
  `(o, k / 128, k % 128)` of the grouped one, whose integer sits at `(o, 128·(k / 128) + k % 128) = (o, k)` of the
  stored weight and whose scale at `(o, k / 128)` of the scales. So the reference is `Σ_k x[b, p, k] · (w[o, k] ·
  scales[o, k / 128])`: the specification, term by term.
-/
import proofs.«112100_j2731599200972_1_alg».proof.Proof.Gen.ReferenceIdeal.Run
import proofs.«112100_j2731599200972_1_alg».proof.Proof.Gen.ReferenceIdeal.Read
import proofs.«112100_j2731599200972_1_alg».proof.Proof.Spec

noncomputable section

open scoped BigOperators

namespace Cert.ReferenceIdeal.RefValue

open Cert.ReferenceIdeal Cert.ReferenceIdeal.Read
open Idealize.ShloMosaic Idealize.ShloMosaic.ValueIdx

/-- The reference's result, stage by stage, is the layer's output at every index. -/
theorem ref_eq (x0 : (⟨S4x2048x4096, .f32⟩ : BufTy).Contents (Elt Ideal)) (x1 : (⟨S11008x4096, .i32⟩ : BufTy).Contents (Elt Ideal))
    (x2 : (⟨S11008x32, .f32⟩ : BufTy).Contents (Elt Ideal)) :
    val_main_v6 (F := Ideal) x0 x1 x2 = Cert.Linear.linearArr x0 x1 x2 := by
  funext i
  have hi2 : (i 2).val < 11008 := (i 2).isLt
  rw [val_main_v6_apply]
  show _ = ∑ k : Fin 4096, x0 (ix3 (⟨(i 0).val, (i 0).isLt⟩ : Fin 4) (⟨(i 1).val, (i 1).isLt⟩ : Fin 2048) k)
      * Cert.Linear.deq x1 x2 (⟨(i 2).val, (i 2).isLt⟩ : Fin 11008) k
  refine Finset.sum_congr rfl fun k _ => ?_
  have hk : k.val < 4096 := k.isLt
  rw [val_main_v5_apply, val_main_v4_apply, val_main_v1_apply, val_main_v0_apply, val_main_v3_apply, val_main_v2_apply]
  have e0 : lidx_main_v6 i k = ix3 (⟨(i 0).val, (i 0).isLt⟩ : Fin 4) (⟨(i 1).val, (i 1).isLt⟩ : Fin 2048) k :=
    funext fun a => Fin.ext (by match a with | ⟨0, _⟩ => rfl | ⟨1, _⟩ => rfl | ⟨2, _⟩ => rfl)
  have e1 : idx_main_v1 (idx_main_v5 (ridx_main_v6 i k)) = ix2 (⟨(i 2).val, (i 2).isLt⟩ : Fin 11008) k :=
    funext fun a => Fin.ext (by
      match a with
      | ⟨0, _⟩ =>
        show ((((i 2).val * 4096 + k.val) / 4096 * 32 + ((i 2).val * 4096 + k.val) / 128 % 32) * 128 + ((i 2).val * 4096 + k.val) % 128) / 4096 = (i 2).val
        omega
      | ⟨1, _⟩ =>
        show ((((i 2).val * 4096 + k.val) / 4096 * 32 + ((i 2).val * 4096 + k.val) / 128 % 32) * 128 + ((i 2).val * 4096 + k.val) % 128) % 4096 = k.val
        omega)
  have e2 : idx_main_v2 (idx_main_v3 (idx_main_v5 (ridx_main_v6 i k))) = ix2 (⟨(i 2).val, (i 2).isLt⟩ : Fin 11008) (Cert.Linear.grp k) :=
    funext fun a => Fin.ext (by
      match a with
      | ⟨0, _⟩ =>
        show ((i 2).val * 4096 + k.val) / 4096 = (i 2).val
        omega
      | ⟨1, _⟩ =>
        show ((i 2).val * 4096 + k.val) / 128 % 32 = k.val / 128
        omega)
  rw [e0, e1, e2]
  rfl

end Cert.ReferenceIdeal.RefValue

end
-- ==== Proof.lean ====
/-
  A linear layer with a groupwise-quantised weight: `y[b, p, o] = Σ_k x[b, p, k] · (w[o, k] · scales[o, k / 128])`
  over x : f32[4, 2048, 4096], w : i32[11008, 4096], scales : f32[11008, 32].

  The kernel program computes it in two pallas_calls around two reshapes: the first dequantises the weight tile by
  tile, 128 columns at a time, each group times its per-row scale; the second multiplies 512-row tiles of the
  activations (reshaped to [8192, 4096]) by 256-row tiles of that weight, contracting all 4096 columns inside one grid
  point into a zero accumulator. The reference converts the weight, groups its columns by reshape, multiplies by the
  broadcast scales, flattens, and contracts with one `dot_general`.

  Over the extended reals the integer conversion is exact, a change of float format is the identity, and the matrix
  unit's product into a zero accumulator and the host's `dot_general` are both the plain sum over `k` of the products.
  So both programs end with the SAME expression at every index — the same products `x · (w · scale)` summed over the
  same 4096 values of `k`; what is proved is index bookkeeping (a tile's entry is the array's entry, a reshape keeps
  row-major position, column `k` belongs to group `k / 128`), never a rearrangement of the sum. No algebraic law that
  could fail at an infinity is used, so the finiteness precondition is never opened.

  The three frames: the two kernel programs' are the generated frame certificates; the reference's is its generated
  run with the result dropped. The idealisation rewrote no operation, so `preserves` has nothing to state.
-/
import proofs.«112100_j2731599200972_1_alg».proof.Defs
import proofs.«112100_j2731599200972_1_alg».proof.Proof.Gen.Kernel
import proofs.«112100_j2731599200972_1_alg».proof.Proof.Gen.Kernel.Frame
import proofs.«112100_j2731599200972_1_alg».proof.Proof.Gen.KernelIdeal
import proofs.«112100_j2731599200972_1_alg».proof.Proof.Gen.KernelIdeal.Frame
import proofs.«112100_j2731599200972_1_alg».proof.Proof.Gen.ReferenceIdeal
import proofs.«112100_j2731599200972_1_alg».proof.Proof.Gen.ReferenceIdeal.Run
import proofs.«112100_j2731599200972_1_alg».proof.Proof.Gen.ReferenceIdeal.Read
import proofs.«112100_j2731599200972_1_alg».proof.Proof.Gen.Pre_finite_inputs
import proofs.«112100_j2731599200972_1_alg».proof.Proof.KernelValue
import proofs.«112100_j2731599200972_1_alg».proof.Proof.RefValue
import Idealize.ShloMosaic.Adequacy
import Idealize.ShloMosaic.Init

noncomputable section

namespace Cert.Proof

open Idealize.ShloMosaic Idealize.SL.Sem

/-- The word-level kernel program runs and leaves its arguments as launched. -/
theorem frame_kernel : Cert.frame_Kernel := fun m ρ _ => Cert.Kernel.Gen.frame m ρ

/-- So does the idealized kernel program. -/
theorem frame_kernelIdeal : Cert.frame_KernelIdeal := fun m ρ _ => Cert.KernelIdeal.Gen.frame m ρ

/-- The reference runs and leaves its arguments as launched: its run, the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealisation rewrote nothing. -/
theorem preserves : Cert.preserves_Kernel_KernelIdeal := trivial

/-- From memories agreeing on the three arguments both programs end with the layer's output of those arguments: the
    kernel program by its run read back through its two pallas_calls, the reference by its run read stage by stage. -/
theorem algebraic : Cert.algebraic_KernelIdeal_ReferenceIdeal := by
  intro m ρ m' ρ' _ hagree
  refine ⟨_, Cert.KernelIdeal.KernelValue.run m ρ, ?_⟩
  refine (θ_run Cert.ReferenceIdeal.defs _ _).mono (fun _ h c => ⟨(h c).1.trans ?_, (h c).2⟩)
    (Cert.ReferenceIdeal.Value.run (F := Ideal) m' ρ')
  refine (Cert.ReferenceIdeal.Read.val_main_v6_eq _ _ _).trans ?_
  refine (Cert.ReferenceIdeal.RefValue.ref_eq _ _ _).trans ?_
  rw [(hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
